-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S128 : Shape := ⟨1, ![128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S1000000x128 .f32) (main_arg1 : FVec F S128 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  main_v8
-- ==== Kernel.lean ====
abbrev S1000000x128 : Shape := ⟨2, ![1000000, 128]⟩
abbrev S128 : Shape := ⟨1, ![128]⟩
abbrev S1x128 : Shape := ⟨2, ![1, 128]⟩
abbrev S20000x128 : Shape := ⟨2, ![20000, 128]⟩

abbrev nBuf : Space → Nat
  | .hbm => 4
  | .vmem => 5
  | .smem => 0
  | _ => 0

abbrev bufTy : (tb : Table) → Fin (tcTables nBuf tb) → BufTy
  | .hbm, ⟨0, _⟩ => ⟨S1000000x128, .f32⟩
  | .hbm, ⟨1, _⟩ => ⟨S128, .f32⟩
  | .hbm, ⟨2, _⟩ => ⟨S1x128, .f32⟩
  | .hbm, ⟨3, _⟩ => ⟨S1000000x128, .f32⟩
  | .local _ .vmem, ⟨0, _⟩ => ⟨S20000x128, .f32⟩
  | .local _ .vmem, ⟨1, _⟩ => ⟨S20000x128, .f32⟩
  | .local _ .vmem, ⟨2, _⟩ => ⟨S1x128, .f32⟩
  | .local _ .vmem, ⟨3, _⟩ => ⟨S20000x128, .f32⟩
  | .local _ .vmem, ⟨4, _⟩ => ⟨S20000x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S128_S1x128 : S128.ShapeCasts S1x128
  inb_S20000x128_S20000x128_0_0 : ∀ a, (![0, 0] : Fin 2 → Nat) a + S20000x128.size a ≤ S20000x128.size a
  h_S20000x128 : 0 < S20000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S20000x128 : S1x128.Broadcasts S20000x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S1000000x128.size a
  hwx0_0 : ∀ i : grid0.Coords, EltTy.bits .f32 = 32 ∨ (Rect.block (s := S1000000x128) S20000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x128.size a ≤ S1000000x128.size a
  hwx0_2 : ∀ i : grid0.Coords, EltTy.bits .f32 = 32 ∨ (Rect.block (s := S1000000x128) S20000x128.size (cc0_transform_2 i) (hinb0_2 i)).WholeWords (EltTy.packing .f32)

variable [Facts₀]

abbrev win0_0 : Pipeline.Window sig grid0 :=
  Pipeline.Window.ofSpec (Memref.whole main_arg0) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S20000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S1000000x128 : Shape := ⟨2, ![1000000, 128]⟩
abbrev S128 : Shape := ⟨1, ![128]⟩
abbrev S1x128 : Shape := ⟨2, ![1, 128]⟩

abbrev nBuf : Space → Nat
  | .hbm => 5
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S128, .f32⟩
  | .hbm, ⟨2, _⟩ => ⟨S1x128, .f32⟩
  | .hbm, ⟨3, _⟩ => ⟨S1000000x128, .f32⟩
  | .hbm, ⟨4, _⟩ => ⟨S1000000x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)

variable [Facts₀]

class Facts : Prop extends Facts₀ where

variable [Facts]
-- ==== Proof.Spec.lean ====
/-
  The function both programs compute: every row of a 1000000 × 128 table multiplied, entry by entry, by one
  128-entry vector, `out[n, d] = x[n, d] · s[d]`.  It is stated for any float instance: nothing but the one
  multiplication is used, so no law of the extended reals (and no finiteness of the inputs) is needed to join the
  two sides.
-/
import Idealize.ShloMosaic.PureOps

noncomputable section

namespace Cert.ColumnScale

open Idealize.ShloMosaic

variable {F : FTy → Type} [FloatOps F]

/-- The table's shape. -/
abbrev Table : Shape := ⟨2, ![1000000, 128]⟩
/-- The scale vector's shape. -/
abbrev Row : Shape := ⟨1, ![128]⟩

/-- The column of a table entry, as an index of the scale vector. -/
abbrev col (i : Table.Idx) : Row.Idx := fun a => match a with
  | ⟨0, _⟩ => ⟨(i 1).val, (i 1).isLt⟩

/-- The table with column `d` scaled by `s d`. -/
def scaled (x : Vec F Table .f32) (s : Vec F Row .f32) : Vec F Table .f32 :=
  fun i => FloatOps.mulf (x i) (s (col i))

theorem scaled_apply (x : Vec F Table .f32) (s : Vec F Row .f32) (i : Table.Idx) :
    scaled x s i = FloatOps.mulf (x i) (s (col i)) := rfl

end Cert.ColumnScale

end
-- ==== Proof.KernelSide.lean ====
/-
  The kernel walks the table in 50 blocks of 20000 rows.  At every block it multiplies the block, entry by entry, by
  the scale vector held as a one-row matrix (the host reshapes the 128-vector to 1 × 128 before the launch) and
  broadcast down the block's rows.  So block `t` of the result is block `t` of the column-scaled table; the 50
  blocks tile the table, hence the result IS the column-scaled table.
-/
import proofs.«404636_j5085241279109_3_alg».proof.Proof.Gen.KernelIdeal.Value
import proofs.«404636_j5085241279109_3_alg».proof.Proof.Spec
import Idealize.ShloMosaic.Lib.Pipeline.Value
import Idealize.ShloMosaic.Lib.StableHlo.Run

noncomputable section

namespace Cert.KernelIdeal.Scale

open Cert.KernelIdeal Cert.KernelIdeal.Gen Cert.ColumnScale Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The body's product at an entry of a block -/

/-- The entry of the one-row matrix under a block entry: row 0, the same lane. -/
abbrev lane (x : S20000x128.Idx) : S1x128.Idx := fun a => match a with
  | ⟨0, _⟩ => ⟨0, Nat.one_pos⟩
  | ⟨1, _⟩ => ⟨(x 1).val, (x 1).isLt⟩

/-- The stored value at a block entry: the block's entry times the one-row matrix's entry in the same lane. -/
theorem pay_apply (P0 : Vec F S20000x128 .f32) (P1 : Vec F S1x128 .f32) (x : S20000x128.Idx) :
    k0_pay1 P0 P1 x = FloatOps.mulf (P0 x) (P1 (lane x)) := by
  show FloatOps.mulf (P0 x) (broadcastTo S20000x128 (shapeCast S1x128 P1 shapeCasts_S1x128_S1x128) broadcasts_S1x128_S20000x128 x) = _
  rw [shapeCast_self]
  rw [broadcastTo_apply P1 broadcasts_S1x128_S20000x128 x (lane x) (fun a => match a with
    | ⟨0, _⟩ => by show 0 = if (1 : Nat) = 1 then 0 else (x 0).val; rw [if_pos rfl]
    | ⟨1, _⟩ => by show (x 1).val = if (128 : Nat) = 1 then 0 else (x 1).val; rw [if_neg (by decide)])]

/-! ## The one-row matrix the region finds -/

/-- The host's reshape: the region finds the scale vector laid out as one row. -/
theorem row_eq (c : Dev nD) :
    (V m c main_v0 : S1x128.Idx → Elt F .f32) = shapeCast S1x128 (m ((c : Thread nD τ).loc main_arg1)) shapeCasts_S128_S1x128 := by
  dsimp only [Gen.V, Gen.hostOps0]
  after_results
  rfl

/-- The one-row matrix at row 0, lane `d`, is the scale vector at `d`. -/
theorem row_apply (c : Dev nD) (j : S1x128.Idx) (k : S128.Idx) (hk : (k 0).val = (j 1).val) :
    V m c main_v0 j = m ((c : Thread nD τ).loc main_arg1) k := by
  have hj0 : (j 0).val < 1 := (j 0).isLt
  refine (congrFun (row_eq m c) j).trans ?_
  refine shapeCast_apply _ shapeCasts_S128_S1x128 j k ?_
  rw [Shape.rowMajor_val_one, Shape.rowMajor_val_two]
  show (k 0).val = (j 0).val * 128 + (j 1).val
  omega

/-! ## Block `t` of the result is block `t` of the column-scaled table -/

theorem zero_off : (![0, 0] : Fin 2 → Nat) = fun _ => 0 := funext fun a => by fin_cases a <;> rfl

/-- Where the windows' blocks sit, decided over the 50 grid points: the table's and the result's block `t` start at row
    `20000 · t` and span all 128 columns; the one-row matrix is one block. -/
theorem where_blocks : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is block `t` of the column-scaled table of the two arguments. -/
theorem flushed_eq (c : Dev nD) (t : Fin cfg0.N) :
    (dats m 0 c).flushed 2 t
      = ((cfg0.win 2).blk t).view.read (Elt F) (scaled (m ((c : Thread nD τ).loc main_arg0)) (m ((c : Thread nD τ).loc main_arg1))) := by
  rw [Value.flushed2]
  unfold out0_2
  rw [View.canon_unit_zero zero_off]
  simp only [View.ld_unit_zero (S := S20000x128) zero_off, View.ld_unit_zero (S := S1x128) zero_off]
  obtain ⟨e0, e1, e2, e3, e4, e5⟩ := where_blocks t
  funext j
  have hj0 : (j 0).val < 20000 := (j 0).isLt
  have hj1 : (j 1).val < 128 := (j 1).isLt
  refine (pay_apply (iblk m c 0 t) (iblk m c 1 t) j).trans ?_
  show FloatOps.mulf (V m c main_arg0 (((cfg0.win 0).blk t).view.emb j)) (V m c main_v0 (((cfg0.win 1).blk t).view.emb (lane j)))
    = FloatOps.mulf (m ((c : Thread nD τ).loc main_arg0) (((cfg0.win 2).blk t).view.emb j))
        (m ((c : Thread nD τ).loc main_arg1) (col (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 20000 + 1 * (j 0).val = win0_2.index t (0 : Fin 2) * 20000 + 1 * (j 0).val; omega
    | ⟨1, _⟩ => show win0_0.index t (1 : Fin 2) * 128 + 1 * (j 1).val = win0_2.index t (1 : Fin 2) * 128 + 1 * (j 1).val; omega
  rw [V_main_arg0, h0]
  refine congrArg _ (row_apply m c _ _ ?_)
  show win0_2.index t (1 : Fin 2) * 128 + 1 * (j 1).val = win0_1.index t (1 : Fin 2) * 128 + 1 * (j 1).val
  omega

/-! ## The blocks tile the table -/

/-- An entry of the table is in point `t`'s block iff each coordinate is in the block's range on its axis. -/
theorem mem_blk (t : Fin cfg0.N) (i : S1000000x128.Idx) :
    i ∈ ((cfg0.win 2).blk t).view.set ↔ ∀ a : Fin 2, win0_2.index t a * S20000x128.size a ≤ (i a).val ∧ (i a).val < win0_2.index t a * S20000x128.size a + S20000x128.size a := by
  show i ∈ ((View.whole main_v1).slice (win0_2.rect t)).set ↔ _
  rw [View.set_slice_whole, Rect.mem_set_unit]
  exact Iff.rfl

/-- Row `n` lies in the block of point `n / 20000`. -/
theorem cover (i : S1000000x128.Idx) :
    ∃ t : Fin cfg0.N, (cfg0.win 2).flush t = true ∧ i ∈ ((cfg0.win 2).blk t).view.set := by
  have hi0 : (i 0).val < 1000000 := (i 0).isLt
  have hi1 : (i 1).val < 128 := (i 1).isLt
  have hN : (i 0).val / 20000 < cfg0.N := by rw [show cfg0.N = 50 from N_0]; omega
  refine ⟨⟨(i 0).val / 20000, hN⟩, flush0_2 _, ?_⟩
  obtain ⟨-, -, -, -, e4, e5⟩ := where_blocks ⟨(i 0).val / 20000, hN⟩
  have e4' : win0_2.index ⟨(i 0).val / 20000, hN⟩ (0 : Fin 2) = (i 0).val / 20000 := e4
  rw [mem_blk]
  intro a
  match a with
  | ⟨0, _⟩ => show win0_2.index ⟨(i 0).val / 20000, hN⟩ (0 : Fin 2) * 20000 ≤ (i 0).val ∧ (i 0).val < win0_2.index ⟨(i 0).val / 20000, hN⟩ (0 : Fin 2) * 20000 + 20000; omega
  | ⟨1, _⟩ => show win0_2.index ⟨(i 0).val / 20000, hN⟩ (1 : Fin 2) * 128 ≤ (i 1).val ∧ (i 1).val < win0_2.index ⟨(i 0).val / 20000, hN⟩ (1 : Fin 2) * 128 + 128; omega

/-- After the run the result array is the column-scaled table. -/
theorem final (c : Dev nD) :
    (dats m 0 c).arrAt 2 cfg0.N = scaled (m ((c : Thread nD τ).loc main_arg0)) (m ((c : Thread nD τ).loc main_arg1)) :=
  (dats m 0 c).arrAt_eq_of_cover 2 _ (fun t _ => flushed_eq m c t) cover

/-- Every weakly fair execution of the kernel's program ends with the result at the column-scaled table of the
    arguments, and the arguments as launched. -/
theorem run : θ_run defs (onTc (τ := τ) (main (F := F))) ⟨m, fun _ => 0, ρ⟩ fun r => ∀ c : Dev nD,
      r.2.mem ((c : Thread nD τ).loc main_v1) = scaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Scale

end
-- ==== Proof.RefSide.lean ====
/-
  The reference multiplies the table by the scale vector broadcast twice: first to a one-row matrix, then down all
  the rows.  Read at an entry `(n, d)`, the two broadcasts pick `s d`, so the product is `x[n, d] · s[d]`.
-/
import proofs.«404636_j5085241279109_3_alg».proof.Proof.Gen.ReferenceIdeal.Run
import proofs.«404636_j5085241279109_3_alg».proof.Proof.Gen.ReferenceIdeal.Read
import proofs.«404636_j5085241279109_3_alg».proof.Proof.Spec

noncomputable section

namespace Cert.ReferenceIdeal.Scale

open Cert.ReferenceIdeal Cert.ReferenceIdeal.Read Cert.ColumnScale Idealize.ShloMosaic

variable {F : FTy → Type} [FloatOps F]

/-- Through both broadcasts an entry of the table reads the scale vector at its own column. -/
theorem bcast_idx (i : S1000000x128.Idx) : idx_main_v0 (idx_main_v1 i) = col i :=
  funext fun a => match a with
    | ⟨0, _⟩ => rfl

/-- The reference's product is the column-scaled table. -/
theorem ref_eq (x0 : (⟨S1000000x128, .f32⟩ : BufTy).Contents (Elt F)) (x1 : (⟨S128, .f32⟩ : BufTy).Contents (Elt F)) :
    val_main_v2 (F := F) x0 x1 = scaled x0 x1 := by
  funext i
  rw [val_main_v2_apply, val_main_v1_apply, val_main_v0_apply, bcast_idx]
  rfl

end Cert.ReferenceIdeal.Scale

end
-- ==== Proof.lean ====
/-
  The kernel scales column `d` of a 1000000 × 128 table by `s d`, block of 20000 rows by block; the reference
  multiplies the table by `s` broadcast down the rows.  Both results are the one function `ColumnScale.scaled` of the
  arguments (Proof/KernelSide.lean, Proof/RefSide.lean), with nothing but the single multiplication on either side, so
  the two agree on all extended reals and the precondition is never opened.  No operation of the kernel is rewritten
  for the exact reading, so the idealized kernel is the kernel's own text and there is nothing to preserve.
-/
import proofs.«404636_j5085241279109_3_alg».proof.Defs
import proofs.«404636_j5085241279109_3_alg».proof.Proof.Gen.Kernel
import proofs.«404636_j5085241279109_3_alg».proof.Proof.Gen.Kernel.Frame
import proofs.«404636_j5085241279109_3_alg».proof.Proof.Gen.KernelIdeal
import proofs.«404636_j5085241279109_3_alg».proof.Proof.Gen.KernelIdeal.Frame
import proofs.«404636_j5085241279109_3_alg».proof.Proof.Gen.ReferenceIdeal
import proofs.«404636_j5085241279109_3_alg».proof.Proof.Gen.Pre_finite_inputs
import proofs.«404636_j5085241279109_3_alg».proof.Proof.KernelSide
import proofs.«404636_j5085241279109_3_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is three host operations; its run leaves the arguments as launched. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the column-scaled table of arguments that agree. -/
theorem algebraic : Cert.algebraic_KernelIdeal_ReferenceIdeal := by
  intro m ρ m' ρ' _ hagree
  refine ⟨fun c => Cert.ColumnScale.scaled (m ((c.tc : Thread Cert.KernelIdeal.nD Cert.KernelIdeal.τ).loc Cert.KernelIdeal.main_arg0))
    (m ((c.tc : Thread Cert.KernelIdeal.nD Cert.KernelIdeal.τ).loc Cert.KernelIdeal.main_arg1)),
    Cert.KernelIdeal.Scale.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.Scale.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
